-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x8 : Shape := ⟨2, ![2048, 8]⟩
abbrev S64x16 : Shape := ⟨2, ![64, 16]⟩
abbrev S64 : Shape := ⟨1, ![64]⟩
abbrev S8x64 : Shape := ⟨2, ![8, 64]⟩
abbrev S8 : Shape := ⟨1, ![8]⟩
abbrev S_ : Shape := ⟨0, ![]⟩

class Facts : Prop where
  bcast_S_S2048x8 : S_.BroadcastsInDim S2048x8 (![] : Fin 0 → Fin S2048x8.rank)
  reducesTo_S2048x8_S_d0_1 : S2048x8.ReducesTo [0, 1] S_
  h_S_ : 0 < S_.numel
  bcast_S_S64x16 : S_.BroadcastsInDim S64x16 (![] : Fin 0 → Fin S64x16.rank)
  reducesTo_S64x16_S_d0_1 : S64x16.ReducesTo [0, 1] S_
  bcast_S_S64 : S_.BroadcastsInDim S64 (![] : Fin 0 → Fin S64.rank)
  reducesTo_S64_S_d0 : S64.ReducesTo [0] S_
  bcast_S_S8x64 : S_.BroadcastsInDim S8x64 (![] : Fin 0 → Fin S8x64.rank)
  reducesTo_S8x64_S_d0_1 : S8x64.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8 .f32) (main_v13 : IVec S_ 1) (main_v16 : IVec S8x64 1) : IVec S_ 1 :=
  let main_c_5 : IVec S_ 1 := constantI S_ 1 1#1
  let main_v17 : IVec S_ 1 := (fun x v => Host.reduce IntOp.andi x v reducesTo_S8x64_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S2048x8 .f32) (main_arg1 : FVec F S64x16 .f32) (main_arg2 : FVec F S64 .f32) (main_arg3 : FVec F S8x64 .f32) (main_arg4 : FVec F S8 .f32) : IVec S_ 1 :=
  let main_v0 : FVec F S2048x8 .f32 := Host.absf main_arg0
  let main_cst : FVec F S_ .f32 := constant S_ .f32 0x7F800000#32
  let main_v1 : FVec F S2048x8 .f32 := broadcastInDim S2048x8 ![] bcast_S_S2048x8 main_cst
  let main_v2 : IVec S2048x8 1 := cmpf .olt main_v0 main_v1
  let main_c : IVec S_ 1 := constantI S_ 1 1#1
  let main_v3 : IVec S_ 1 := (fun x v => Host.reduce IntOp.andi x v reducesTo_S2048x8_S_d0_1 h_S_) main_v2 main_c
  let main_v4 : FVec F S64x16 .f32 := Host.absf main_arg1
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S8x64 .f32 := Host.absf main_arg3
  let main_cst_4 : FVec F S_ .f32 := constant S_ .f32 0x7F800000#32
  let main_v15 : FVec F S8x64 .f32 := broadcastInDim S8x64 ![] bcast_S_S8x64 main_cst_4
  let main_v16 : IVec S8x64 1 := cmpf .olt main_v14 main_v15
  fn_part1 (F := F) main_arg4 main_v13 main_v16
-- ==== Kernel.lean ====
abbrev S2048x8 : Shape := ⟨2, ![2048, 8]⟩
abbrev S64x16 : Shape := ⟨2, ![64, 16]⟩
abbrev S64 : Shape := ⟨1, ![64]⟩
abbrev S8x64 : Shape := ⟨2, ![8, 64]⟩
abbrev S8 : Shape := ⟨1, ![8]⟩
abbrev S64x8 : Shape := ⟨2, ![64, 8]⟩
abbrev S2048x64 : Shape := ⟨2, ![2048, 64]⟩
abbrev S1x64 : Shape := ⟨2, ![1, 64]⟩
abbrev S256x64 : Shape := ⟨2, ![256, 64]⟩
abbrev S1x256x64 : Shape := ⟨3, ![1, 256, 64]⟩
abbrev S256x1x64 : Shape := ⟨3, ![256, 1, 64]⟩
abbrev S256x256x64 : Shape := ⟨3, ![256, 256, 64]⟩
abbrev S_ : Shape := ⟨0, ![]⟩
abbrev S1x8 : Shape := ⟨2, ![1, 8]⟩

abbrev nBuf : Space → Nat
  | .hbm => 28
  | .vmem => 6
  | .smem => 0
  | _ => 0

abbrev bufTy : (tb : Table) → Fin (tcTables nBuf tb) → BufTy
  | .hbm, ⟨0, _⟩ => ⟨S2048x8, .f32⟩
  | .hbm, ⟨1, _⟩ => ⟨S64x16, .f32⟩
  | .hbm, ⟨2, _⟩ => ⟨S64, .f32⟩
  | .hbm, ⟨3, _⟩ => ⟨S8x64, .f32⟩
  | .hbm, ⟨4, _⟩ => ⟨S8, .f32⟩
  | .hbm, ⟨5, _⟩ => ⟨S64x8, .f32⟩
  | .hbm, ⟨6, _⟩ => ⟨S2048x64, .f32⟩
  | .hbm, ⟨7, _⟩ => ⟨S64x8, .f32⟩
  | .hbm, ⟨8, _⟩ => ⟨S2048x64, .f32⟩
  | .hbm, ⟨9, _⟩ => ⟨S1x64, .f32⟩
  | .hbm, ⟨10, _⟩ => ⟨S2048x64, .f32⟩
  | .hbm, ⟨11, _⟩ => ⟨S2048x64, .f32⟩
  | .hbm, ⟨12, _⟩ => ⟨S2048x64, .f32⟩
  | .hbm, ⟨13, _⟩ => ⟨S2048x64, .f32⟩
  | .hbm, ⟨14, _⟩ => ⟨S_, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S1x8, .f32⟩
  | .hbm, ⟨23, _⟩ => ⟨S2048x8, .f32⟩
  | .hbm, ⟨24, _⟩ => ⟨S2048x8, .f32⟩
  | .hbm, ⟨25, _⟩ => ⟨S_, .f32⟩
  | .hbm, ⟨26, _⟩ => ⟨S2048x8, .f32⟩
  | .hbm, ⟨27, _⟩ => ⟨S2048x8, .f32⟩
  | .local _ .vmem, ⟨0, _⟩ => ⟨S256x64, .f32⟩
  | .local _ .vmem, ⟨1, _⟩ => ⟨S256x64, .f32⟩
  | .local _ .vmem, ⟨2, _⟩ => ⟨S256x64, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | _, _ => ⟨S2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_cst : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S64x16_S64x8_0_0 : S64x16.Slices ![0, 0] S64x8
  slices_S64x16_S64x8_0_8 : S64x16.Slices ![0, 8] S64x8
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  inb_S256x64_S256x64_0_0 : ∀ a, (![0, 0] : Fin 2 → Nat) a + S256x64.size a ≤ S256x64.size a
  h_S256x64 : 0 < S256x64.numel
  shapeCasts_S256x64_S256x64 : S256x64.ShapeCasts S256x64
  shapeCasts_S256x64_S1x256x64 : S256x64.ShapeCasts S1x256x64
  shapeCasts_S256x64_S256x1x64 : S256x64.ShapeCasts S256x1x64
  broadcasts_S1x256x64_S256x256x64 : S1x256x64.Broadcasts S256x256x64
  broadcasts_S256x1x64_S256x256x64 : S256x1x64.Broadcasts S256x256x64
  reduces_S256x256x64_S256x64 : S256x256x64.Reduces [0] S256x64
  bcast_S_S2048x64 : S_.BroadcastsInDim S2048x64 (![] : Fin 0 → Fin S2048x64.rank)
  bcast_S_S8 : S_.BroadcastsInDim S8 (![] : Fin 0 → Fin S8.rank)
  bcast_S8_S1x8_1 : S8.BroadcastsInDim S1x8 (![1] : Fin 1 → Fin S1x8.rank)
  bcast_S1x8_S2048x8_0_1 : S1x8.BroadcastsInDim S2048x8 (![0, 1] : Fin 2 → Fin S2048x8.rank)
  bcast_S_S2048x8 : S_.BroadcastsInDim S2048x8 (![] : Fin 0 → Fin S2048x8.rank)
  dot_S2048x8_S64x8_S2048x64_1_1_0_0_n_n_wf : DotDims.WF S2048x8 S64x8 S2048x64 [1] [1] [0] [0] [] []
  dot_S2048x64_S8x64_S2048x8_1_1_0_0_n_n_wf : DotDims.WF S2048x64 S8x64 S2048x8 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S2048x64.size a
  hwx0_0 : ∀ i : grid0.Coords, EltTy.bits .f32 = 32 ∨ (Rect.block (s := S2048x64) S256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S2048x64.size a
  hwx0_1 : ∀ i : grid0.Coords, EltTy.bits .f32 = 32 ∨ (Rect.block (s := S2048x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S2048x64.size a
  hwx0_2 : ∀ i : grid0.Coords, EltTy.bits .f32 = 32 ∨ (Rect.block (s := S2048x64) S256x64.size (cc0_transform_2 i) (hinb0_2 i)).WholeWords (EltTy.packing .f32)

variable [Facts₀]

def dot_S2048x8_S64x8_S2048x64_1_1_0_0_n_n : DotDims S2048x8 S64x8 S2048x64 where
  lhsContracting := [1]
  rhsContracting := [1]
  lhsNonContracting := [0]
  rhsNonContracting := [0]
  lhsBatch := []
  rhsBatch := []
  wf := dot_S2048x8_S64x8_S2048x64_1_1_0_0_n_n_wf
def dot_S2048x64_S8x64_S2048x8_1_1_0_0_n_n : DotDims S2048x64 S8x64 S2048x8 where
  lhsContracting := [1]
  rhsContracting := [1]
  lhsNonContracting := [0]
  rhsNonContracting := [0]
  lhsBatch := []
  rhsBatch := []
  wf := dot_S2048x64_S8x64_S2048x8_1_1_0_0_n_n_wf

abbrev win0_0 : Pipeline.Window sig grid0 :=
  Pipeline.Window.ofSpec (Memref.whole main_v6) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x8 : Shape := ⟨2, ![2048, 8]⟩
abbrev S64x16 : Shape := ⟨2, ![64, 16]⟩
abbrev S64 : Shape := ⟨1, ![64]⟩
abbrev S8x64 : Shape := ⟨2, ![8, 64]⟩
abbrev S8 : Shape := ⟨1, ![8]⟩
abbrev S64x8 : Shape := ⟨2, ![64, 8]⟩
abbrev S2048x64 : Shape := ⟨2, ![2048, 64]⟩
abbrev S2048x1x64 : Shape := ⟨3, ![2048, 1, 64]⟩
abbrev S1x2048x64 : Shape := ⟨3, ![1, 2048, 64]⟩
abbrev S2048x2048x64 : Shape := ⟨3, ![2048, 2048, 64]⟩
abbrev S1x1x64 : Shape := ⟨3, ![1, 1, 64]⟩
abbrev S_ : Shape := ⟨0, ![]⟩
abbrev S1x64 : Shape := ⟨2, ![1, 64]⟩
abbrev S1x8 : Shape := ⟨2, ![1, 8]⟩

abbrev nBuf : Space → Nat
  | .hbm => 40
  | .vmem => 0
  | .smem => 0
  | _ => 0

abbrev bufTy : (tb : Table) → Fin (tcTables nBuf tb) → BufTy
  | .hbm, ⟨0, _⟩ => ⟨S2048x8, .f32⟩
  | .hbm, ⟨1, _⟩ => ⟨S64x16, .f32⟩
  | .hbm, ⟨2, _⟩ => ⟨S64, .f32⟩
  | .hbm, ⟨3, _⟩ => ⟨S8x64, .f32⟩
  | .hbm, ⟨4, _⟩ => ⟨S8, .f32⟩
  | .hbm, ⟨5, _⟩ => ⟨S64x8, .f32⟩
  | .hbm, ⟨6, _⟩ => ⟨S2048x64, .f32⟩
  | .hbm, ⟨7, _⟩ => ⟨S64x8, .f32⟩
  | .hbm, ⟨8, _⟩ => ⟨S2048x64, .f32⟩
  | .hbm, ⟨9, _⟩ => ⟨S2048x1x64, .f32⟩
  | .hbm, ⟨10, _⟩ => ⟨S1x2048x64, .f32⟩
  | .hbm, ⟨11, _⟩ => ⟨S2048x2048x64, .f32⟩
  | .hbm, ⟨12, _⟩ => ⟨S2048x2048x64, .f32⟩
  | .hbm, ⟨13, _⟩ => ⟨S2048x2048x64, .f32⟩
  | .hbm, ⟨14, _⟩ => ⟨S1x1x64, .f32⟩
  | .hbm, ⟨15, _⟩ => ⟨S2048x2048x64, .f32⟩
  | .hbm, ⟨16, _⟩ => ⟨S2048x2048x64, .f32⟩
  | .hbm, ⟨17, _⟩ => ⟨S_, .f32⟩
  | .hbm, ⟨18, _⟩ => ⟨S2048x2048x64, .f32⟩
  | .hbm, ⟨19, _⟩ => ⟨S2048x2048x64, .f32⟩
  | .hbm, ⟨20, _⟩ => ⟨S_, .f32⟩
  | .hbm, ⟨21, _⟩ => ⟨S2048x64, .f32⟩
  | .hbm, ⟨22, _⟩ => ⟨S2048x64, .f32⟩
  | .hbm, ⟨23, _⟩ => ⟨S1x64, .f32⟩
  | .hbm, ⟨24, _⟩ => ⟨S2048x64, .f32⟩
  | .hbm, ⟨25, _⟩ => ⟨S2048x64, .f32⟩
  | .hbm, ⟨26, _⟩ => ⟨S_, .f32⟩
  | .hbm, ⟨27, _⟩ => ⟨S2048x64, .f32⟩
  | .hbm, ⟨28, _⟩ => ⟨S2048x64, .f32⟩
  | .hbm, ⟨29, _⟩ => ⟨S2048x64, .f32⟩
  | .hbm, ⟨30, _⟩ => ⟨S2048x8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S1x8, .f32⟩
  | .hbm, ⟨35, _⟩ => ⟨S2048x8, .f32⟩
  | .hbm, ⟨36, _⟩ => ⟨S2048x8, .f32⟩
  | .hbm, ⟨37, _⟩ => ⟨S_, .f32⟩
  | .hbm, ⟨38, _⟩ => ⟨S2048x8, .f32⟩
  | .hbm, ⟨39, _⟩ => ⟨S2048x8, .f32⟩
  | _, _ => ⟨S2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call1_cst : Ref sig .tc := ⟨.hbm, 26, rfl⟩
abbrev main_call1_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  slices_S64x16_S64x8_0_0 : S64x16.Slices ![0, 0] S64x8
  slices_S64x16_S64x8_0_8 : S64x16.Slices ![0, 8] S64x8
  bcast_S2048x64_S2048x1x64_0_2 : S2048x64.BroadcastsInDim S2048x1x64 (![0, 2] : Fin 2 → Fin S2048x1x64.rank)
  bcast_S2048x64_S1x2048x64_1_2 : S2048x64.BroadcastsInDim S1x2048x64 (![1, 2] : Fin 2 → Fin S1x2048x64.rank)
  bcast_S2048x1x64_S2048x2048x64_0_1_2 : S2048x1x64.BroadcastsInDim S2048x2048x64 (![0, 1, 2] : Fin 3 → Fin S2048x2048x64.rank)
  bcast_S1x2048x64_S2048x2048x64_0_1_2 : S1x2048x64.BroadcastsInDim S2048x2048x64 (![0, 1, 2] : Fin 3 → Fin S2048x2048x64.rank)
  bcast_S64_S1x1x64_2 : S64.BroadcastsInDim S1x1x64 (![2] : Fin 1 → Fin S1x1x64.rank)
  bcast_S1x1x64_S2048x2048x64_0_1_2 : S1x1x64.BroadcastsInDim S2048x2048x64 (![0, 1, 2] : Fin 3 → Fin S2048x2048x64.rank)
  bcast_S_S2048x2048x64 : S_.BroadcastsInDim S2048x2048x64 (![] : Fin 0 → Fin S2048x2048x64.rank)
  reducesTo_S2048x2048x64_S2048x64_d1 : S2048x2048x64.ReducesTo [1] S2048x64
  h_S_ : 0 < S_.numel
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  bcast_S_S2048x64 : S_.BroadcastsInDim S2048x64 (![] : Fin 0 → Fin S2048x64.rank)
  bcast_S_S8 : S_.BroadcastsInDim S8 (![] : Fin 0 → Fin S8.rank)
  bcast_S8_S1x8_1 : S8.BroadcastsInDim S1x8 (![1] : Fin 1 → Fin S1x8.rank)
  bcast_S1x8_S2048x8_0_1 : S1x8.BroadcastsInDim S2048x8 (![0, 1] : Fin 2 → Fin S2048x8.rank)
  bcast_S_S2048x8 : S_.BroadcastsInDim S2048x8 (![] : Fin 0 → Fin S2048x8.rank)
  dot_S2048x8_S64x8_S2048x64_1_1_0_0_n_n_wf : DotDims.WF S2048x8 S64x8 S2048x64 [1] [1] [0] [0] [] []
  dot_S2048x64_S8x64_S2048x8_1_1_0_0_n_n_wf : DotDims.WF S2048x64 S8x64 S2048x8 [1] [1] [0] [0] [] []

variable [Facts₀]

def dot_S2048x8_S64x8_S2048x64_1_1_0_0_n_n : DotDims S2048x8 S64x8 S2048x64 where
  lhsContracting := [1]
  rhsContracting := [1]
  lhsNonContracting := [0]
  rhsNonContracting := [0]
  lhsBatch := []
  rhsBatch := []
  wf := dot_S2048x8_S64x8_S2048x64_1_1_0_0_n_n_wf
def dot_S2048x64_S8x64_S2048x8_1_1_0_0_n_n : DotDims S2048x64 S8x64 S2048x8 where
  lhsContracting := [1]
  rhsContracting := [1]
  lhsNonContracting := [0]
  rhsNonContracting := [0]
  lhsBatch := []
  rhsBatch := []
  wf := dot_S2048x64_S8x64_S2048x8_1_1_0_0_n_n_wf

class Facts : Prop extends Facts₀ where

variable [Facts]
-- ==== Proof.KBody.lean ====
/-
  What one run of the kernel body leaves in the output block, as a value.

  The body reads the query block `x` (256 rows of the biased first product), the key block `y` (256 rows of the
  second product) and the output block `acc`, and stores
      acc (b, h) + ∑ a, max (x (b, h) + y (a, h)) 0          (a over the 256 rows of the key block)
  at row `b`, column `h`.  At the first step along the key axis it first stores the zero block and reads it
  back, so there `acc` is zero.
-/
import proofs.«122080_j29652454212127_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen Idealize.ShloMosaic.ValueIdx

variable {F : FTy → Type} [FloatOps F]

theorem hz : (![0, 0] : Fin 2 → Nat) = fun _ => 0 := funext fun a => by fin_cases a <;> rfl

/-- A step that is not the first along the key axis: the body leaves the payload of the two input blocks and
    of what the output block held. -/
theorem out_B (c : Dev nD) (i : grid0.Coords) (a2 : Memref sig .tc .vmem S256x64 .f32) (h2 : a2.IsWhole)
    (a3 : Memref sig .tc .vmem S256x64 .f32) (h3 : a3.IsWhole) (a4 : Memref sig .tc .vmem S256x64 .f32) (h4 : a4.IsWhole)
    (hc : ¬cond0_0 i) (x y acc : Vec F S256x64 .f32) :
    out0_B_2 c i a2 h2 a3 h3 a4 h4 hc x y acc = k0_pay2 x y acc := by
  unfold out0_B_2
  rw [View.read_writes_eq_canon _ _ _ (cover0_B_2 c i a2 h2 a3 h3 a4 h4 hc x y acc)]
  unfold kernelRun0_B
  dsimp only
  sl_unfold_words
  rw [View.canon_unit_zero hz]
  simp only [View.readAt_eq_ld, h2.read_unread, h3.read_unread, h4.read_unread, View.ld_unit_zero (S := S256x64) hz]

/-- The first step along the key axis: the zero block is stored and read back, so the body leaves the payload
    of the two input blocks and of the zero block. -/
theorem out_A (c : Dev nD) (i : grid0.Coords) (a2 : Memref sig .tc .vmem S256x64 .f32) (h2 : a2.IsWhole)
    (a3 : Memref sig .tc .vmem S256x64 .f32) (h3 : a3.IsWhole) (a4 : Memref sig .tc .vmem S256x64 .f32) (h4 : a4.IsWhole)
    (hc : cond0_0 i) (x y : Vec F S256x64 .f32) :
    out0_A_2 c i a2 h2 a3 h3 a4 h4 hc x y = k0_pay2 x y (k0_pay1 (F := F)) := by
  unfold out0_A_2
  rw [View.read_writes_eq_canon _ _ _ (cover0_A_2 c i a2 h2 a3 h3 a4 h4 hc x y)]
  unfold kernelRun0_A
  dsimp only
  sl_unfold_words
  rw [View.canon_cons_unit_zero (S := S256x64) hz, View.readCov_unit_zero (S := S256x64) _ hz]
  simp only [View.readAt_eq_ld, h2.read_unread, h3.read_unread, View.ld_unit_zero (S := S256x64) hz]

/-- The zero block, read at any index at the ideal values. -/
theorem pay1_apply (j : S256x64.Idx) : k0_pay1 (F := Ideal) j = 0 := by
  unfold k0_pay1
  exact Ideal.ofBits_zero_f32

/-- The payload read at row `b`, column `h`, at the ideal values: the old contents plus the sum over the key
    block's rows of the rectified sums. -/
theorem pay2_apply (x y acc : Vec Ideal S256x64 .f32) (b : Fin 256) (h : Fin 64) :
    k0_pay2 (F := Ideal) x y acc (ix2 b h) = acc (ix2 b h) + ∑ a : Fin 256, max (x (ix2 b h) + y (ix2 a h)) 0 := by
  unfold k0_pay2
  dsimp only
  refine (addf_apply _ _ _).trans (congrArg₂ (· + ·) (congrFun (shapeCast_self acc _) _) ?_)
  refine (Ideal.multiReduction_add_single _ _ reduces_S256x256x64_S256x64 _ _ (ix2 b h)).trans ?_
  show ∑ a : Fin 256, _ = _
  refine Finset.sum_congr rfl fun a _ => ?_
  refine (maximumf_apply _ _ _).trans (congrArg₂ max ?_ Ideal.ofBits_zero_f32)
  refine (addf_apply _ _ _).trans (congrArg₂ (· + ·) ?_ ?_)
  · -- the query block: one copy per key row
    refine (broadcastTo_apply _ broadcasts_S1x256x64_S256x256x64 _ (ix3 (0 : Fin 1) b h) fun ax => ?_).trans
      ((shapeCast_ab_1ab_apply _ _ 0 b h).trans (congrFun (shapeCast_self x _) _))
    match ax with
    | ⟨0, _⟩ => show 0 = if (1 : Nat) = 1 then 0 else _; rw [if_pos rfl]
    | ⟨1, _⟩ => show b.val = if (256 : Nat) = 1 then 0 else _; rw [if_neg (by decide)]; rfl
    | ⟨2, _⟩ => show h.val = if (64 : Nat) = 1 then 0 else _; rw [if_neg (by decide)]; rfl
  · -- the key block: one copy per query row
    refine (broadcastTo_apply _ broadcasts_S256x1x64_S256x256x64 _ (ix3 a (0 : Fin 1) h) fun ax => ?_).trans
      ((shapeCast_apply _ shapeCasts_S256x64_S256x1x64 (ix3 a (0 : Fin 1) h) (ix2 a h) ?_).trans (congrFun (shapeCast_self y _) _))
    · match ax with
      | ⟨0, _⟩ => show a.val = if (256 : Nat) = 1 then 0 else _; rw [if_neg (by decide)]; rfl
      | ⟨1, _⟩ => show 0 = if (1 : Nat) = 1 then 0 else _; rw [if_pos rfl]
      | ⟨2, _⟩ => show h.val = if (64 : Nat) = 1 then 0 else _; rw [if_neg (by decide)]; rfl
    · rw [Shape.rowMajor_val_two, Shape.rowMajor_val_three]
      show a.val * 64 + h.val = (a.val * 1 + 0) * 64 + h.val
      omega

end Cert.KernelIdeal.Body

end
-- ==== Proof.PairSpec.lean ====
/-
  The mathematics of the pairwise hidden-state sum, over the extended reals.

  For arrays `A` (the query rows, with the bias folded in) and `B` (the key rows), both of 2048 rows and 64
  columns, the quantity both programs compute at row `r`, column `h` is
      ∑ j, max (A r h + B j h) 0,
  the sum over all 2048 key rows `j`.  The kernel reaches it in eight steps of 256 key rows each, starting
  from zero, so what it holds after a step is the partial sum over the first `n` key rows; the reference takes
  the sum in one piece, with the bias added after the key row instead of before it.  Both differences are the
  commutativity and associativity of addition on the extended reals, which hold without any finiteness.
-/
import Idealize.ShloMosaic.PureOps.Ideal
import Idealize.ShloMosaic.Lib.ValueIdx

noncomputable section

namespace PairSpec

open Finset

variable (A B : Fin 2048 → Fin 64 → EReal) (r : Fin 2048) (h : Fin 64)

/-- The contribution of key row `j` to the sum at `(r, h)`, as a function of a natural number (zero past the
    last row), so that sums over ranges of rows split by `Finset.sum_range_add`. -/
def term (j : ℕ) : EReal := if hj : j < 2048 then max (A r h + B ⟨j, hj⟩ h) 0 else 0

/-- The partial sum over the first `n` key rows. -/
def partSum (n : ℕ) : EReal := ∑ j ∈ range n, term A B r h j

theorem partSum_zero : partSum A B r h 0 = 0 := Finset.sum_range_zero _

/-- A block of 256 consecutive key rows starting at row `n`, summed over its own coordinate, is the
    corresponding stretch of the range sum. -/
theorem block_sum (n : ℕ) (hn : n + 256 ≤ 2048) :
    ∑ a : Fin 256, max (A r h + B ⟨n + a.val, by have := a.isLt; omega⟩ h) 0 = ∑ a ∈ range 256, term A B r h (n + a) := by
  rw [← Fin.sum_univ_eq_sum_range (fun a => term A B r h (n + a)) 256]
  refine Finset.sum_congr rfl fun a _ => ?_
  unfold term
  rw [dif_pos (by have := a.isLt; omega)]

/-- One step of the accumulation: the partial sum over `n + 256` rows is the partial sum over `n` rows plus
    the block of 256 rows that starts at row `n`. -/
theorem partSum_step (n : ℕ) (hn : n + 256 ≤ 2048) :
    partSum A B r h (n + 256)
      = partSum A B r h n + ∑ a : Fin 256, max (A r h + B ⟨n + a.val, by have := a.isLt; omega⟩ h) 0 := by
  rw [block_sum A B r h n hn]
  exact Finset.sum_range_add _ n 256

/-- The partial sum over all 2048 key rows is the whole sum. -/
theorem partSum_full : partSum A B r h 2048 = ∑ j : Fin 2048, max (A r h + B j h) 0 := by
  unfold partSum
  rw [← Fin.sum_univ_eq_sum_range (fun j => term A B r h j) 2048]
  refine Finset.sum_congr rfl fun j _ => ?_
  unfold term
  rw [dif_pos j.isLt]

/-- The shape of the two arrays and of the sum: 2048 rows, 64 columns. -/
abbrev Rows : Idealize.ShloMosaic.Shape := ⟨2, ![2048, 64]⟩

/-- The pairwise sum of two arrays: at `(r, h)` the sum over all key rows `j` of `max (X r h + Y j h) 0`. -/
def pairSum (X Y : Rows.Idx → EReal) : Rows.Idx → EReal :=
  fun i => ∑ j : Fin 2048, max (X i + Y (Idealize.ShloMosaic.ValueIdx.ix2 j (i 1))) 0

/-- The bias may be added before the key row or after it. -/
theorem bias_comm (x b y : EReal) : max ((x + b) + y) 0 = max ((x + y) + b) 0 := by
  rw [add_right_comm]

end PairSpec

end
-- ==== Proof.KSum.lean ====
/-
  What the output block holds after each grid point: a partial sum over key rows.

  The grid has 64 points; point `t` works on query rows `256 * (t / 8) …` and key rows `256 * (t % 8) …`.  The
  output block stays in place while `t % 8` runs from 0 to 7 and is reset at `t % 8 = 0`, so after point `t` it
  holds, at row `b` and column `h`, the sum of `max (A r h + B j h) 0` over the first `256 * (t % 8) + 256` key
  rows `j`, where `r = 256 * (t / 8) + b` is the query row: by induction on the point.
-/
import proofs.«122080_j29652454212127_1_alg».proof.Proof.KBody
import proofs.«122080_j29652454212127_1_alg».proof.Proof.PairSpec

noncomputable section

open Idealize.ShloMosaic Idealize.ShloMosaic.TcCoe Idealize.SL.Sem
open Idealize.ShloMosaic.Pipeline (Dat)

namespace Cert.KernelIdeal.Sum

open Cert.KernelIdeal Cert.KernelIdeal.Gen Cert.KernelIdeal.Body Idealize.ShloMosaic.ValueIdx

variable (m : (ℓ : Loc nD τ sig) → Buf (Elt Idealize.ShloMosaic.Ideal) ℓ)

/-- The two arrays the kernel reads, as the region finds them: the biased first product and the second product. -/
abbrev qarr (c : Dev nD) : Vec Idealize.ShloMosaic.Ideal S2048x64 .f32 := V m c main_v6
abbrev karr (c : Dev nD) : Vec Idealize.ShloMosaic.Ideal S2048x64 .f32 := V m c main_v3
/-- Their blocks at a grid point. -/
abbrev qblk (c : Dev nD) (t : Fin cfg0.N) : Vec Idealize.ShloMosaic.Ideal S256x64 .f32 := iblk m c 0 t
abbrev kblk (c : Dev nD) (t : Fin cfg0.N) : Vec Idealize.ShloMosaic.Ideal S256x64 .f32 := iblk m c 1 t

/-- The same arrays as functions of a row and a column. -/
def A (c : Dev nD) : Fin 2048 → Fin 64 → EReal := fun r h => qarr m c (ix2 r h)
def B (c : Dev nD) : Fin 2048 → Fin 64 → EReal := fun r h => karr m c (ix2 r h)

/-- Which block of its array each window is on at point `t`: the query and output windows move with `t / 8`, the
    key window with `t % 8`; decided once over the grid. -/
theorem idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- Row `b` of the query block at point `t` is row `256 * (t / 8) + b` of the array. -/
theorem qblk_apply (c : Dev nD) (t : Fin cfg0.N) (b : Fin 256) (h : Fin 64) (r : Fin 2048)
    (hr : r.val = 256 * (t.val / 8) + b.val) : qblk m c t (ix2 b h) = A m c r h := by
  obtain ⟨e0, e1, -, -, -, -⟩ := idx_facts t
  unfold A
  show iblk m c 0 t (ix2 b h) = V m c main_v6 (ix2 r h)
  unfold iblk
  rw [View.read_apply]
  show V m c main_v6 _ = V m c main_v6 _
  refine congrArg (V m c main_v6) (funext fun a => Fin.ext ?_)
  match a with
  | ⟨0, _⟩ => show win0_0.index t (0 : Fin 2) * 256 + 1 * b.val = r.val; rw [e0, hr]; omega
  | ⟨1, _⟩ => show win0_0.index t (1 : Fin 2) * 64 + 1 * h.val = h.val; rw [e1]; omega

/-- Row `a` of the key block at point `t` is row `256 * (t % 8) + a` of the array. -/
theorem kblk_apply (c : Dev nD) (t : Fin cfg0.N) (a : Fin 256) (h : Fin 64) (k : Fin 2048)
    (hk : k.val = 256 * (t.val % 8) + a.val) : kblk m c t (ix2 a h) = B m c k h := by
  obtain ⟨-, -, e0, e1, -, -⟩ := idx_facts t
  unfold B
  show iblk m c 1 t (ix2 a h) = V m c main_v3 (ix2 k h)
  unfold iblk
  rw [View.read_apply]
  show V m c main_v3 _ = V m c main_v3 _
  refine congrArg (V m c main_v3) (funext fun ax => Fin.ext ?_)
  match ax with
  | ⟨0, _⟩ => show win0_1.index t (0 : Fin 2) * 256 + 1 * a.val = k.val; rw [e0, hk]; omega
  | ⟨1, _⟩ => show win0_1.index t (1 : Fin 2) * 64 + 1 * h.val = h.val; rw [e1]; omega

/-- One run of the body at point `t` over an output block that holds the partial sum over the key rows before
    this point's block: it leaves the partial sum that includes the block. -/
theorem acc_step (c : Dev nD) (t : Fin cfg0.N) (acc : Vec Idealize.ShloMosaic.Ideal S256x64 .f32) (b : Fin 256) (h : Fin 64)
    (r : Fin 2048) (hr : r.val = 256 * (t.val / 8) + b.val)
    (hacc : acc (ix2 b h) = PairSpec.partSum (A m c) (B m c) r h (256 * (t.val % 8))) :
    k0_pay2 (F := Idealize.ShloMosaic.Ideal) (qblk m c t) (kblk m c t) acc (ix2 b h)
      = PairSpec.partSum (A m c) (B m c) r h (256 * (t.val % 8) + 256) := by
  rw [PairSpec.partSum_step (A m c) (B m c) r h (256 * (t.val % 8)) (by omega), ← hacc]
  refine (pay2_apply (qblk m c t) (kblk m c t) acc b h).trans (congrArg (acc (ix2 b h) + ·) (Finset.sum_congr rfl fun a _ => ?_))
  exact congrArg₂ (fun u v : EReal => max (u + v) 0) (qblk_apply m c t b h r hr) (kblk_apply m c t a h _ rfl)

/-- At a point where the key axis restarts, the output block is the body's payload over the zero block. -/
theorem outs_A (c : Dev nD) (t : Fin cfg0.N) (h0 : t.val % 8 = 0) :
    outsAt0 m c t.val t.isLt = k0_pay2 (qblk m c t) (kblk m c t) (k0_pay1 (F := Idealize.ShloMosaic.Ideal)) :=
  (outsAt0_A m c t h0).trans
    (out_A c (grid0.coords t) (ms0_0 t) (hs0_0 t) (ms0_1 t) (hs0_1 t) (ms0_2 t) (hs0_2 t) ((hcond0_0 t).mpr h0) (iblk m c 0 t) (iblk m c 1 t))

/-- At any other point it is the payload over what the point before left. -/
theorem outs_B (c : Dev nD) (t : Fin cfg0.N) (h0 : ¬t.val % 8 = 0) :
    outsAt0 m c t.val t.isLt = k0_pay2 (qblk m c t) (kblk m c t) (outsAt0 m c (t.val - 1) (Nat.lt_of_le_of_lt (Nat.sub_le _ _) t.isLt)) :=
  (outsAt0_B m c t h0).trans
    (out_B c (grid0.coords t) (ms0_0 t) (hs0_0 t) (ms0_1 t) (hs0_1 t) (ms0_2 t) (hs0_2 t) (fun h => h0 ((hcond0_0 t).mp h)) (iblk m c 0 t) (iblk m c 1 t)
      (outsAt0 m c (t.val - 1) (Nat.lt_of_le_of_lt (Nat.sub_le _ _) t.isLt)))

/-- THE INVARIANT: after point `n` the output block holds, at row `b` and column `h`, the partial sum over the
    first `256 * (n % 8) + 256` key rows, for the query row `256 * (n / 8) + b`. -/
theorem outsAt_apply (c : Dev nD) : ∀ (n : ℕ) (hn : n < cfg0.N) (b : Fin 256) (h : Fin 64) (r : Fin 2048),
    r.val = 256 * (n / 8) + b.val →
    outsAt0 m c n hn (ix2 b h) = PairSpec.partSum (A m c) (B m c) r h (256 * (n % 8) + 256)
  | 0, hn, b, h, r, hr => by
    refine (congrFun (outs_A m c ⟨0, hn⟩ rfl) (ix2 b h)).trans ?_
    refine acc_step m c ⟨0, hn⟩ _ b h r hr ?_
    exact (pay1_apply _).trans (PairSpec.partSum_zero _ _ r h).symm
  | n + 1, hn, b, h, r, hr => by
    by_cases h0 : (n + 1) % 8 = 0
    · refine (congrFun (outs_A m c ⟨n + 1, hn⟩ h0) (ix2 b h)).trans ?_
      refine acc_step m c ⟨n + 1, hn⟩ _ b h r hr ?_
      show _ = PairSpec.partSum (A m c) (B m c) r h (256 * ((n + 1) % 8))
      rw [h0]
      exact (pay1_apply _).trans (PairSpec.partSum_zero _ _ r h).symm
    · refine (congrFun (outs_B m c ⟨n + 1, hn⟩ h0) (ix2 b h)).trans ?_
      refine acc_step m c ⟨n + 1, hn⟩ _ b h r hr ?_
      show outsAt0 m c n _ (ix2 b h) = PairSpec.partSum (A m c) (B m c) r h (256 * ((n + 1) % 8))
      rw [outsAt_apply c n (Nat.lt_of_succ_lt hn) b h r (by omega)]
      exact congrArg (PairSpec.partSum (A m c) (B m c) r h) (by omega)

end Cert.KernelIdeal.Sum

end
-- ==== Proof.KArray.lean ====
/-
  The kernel's result array after the run: the whole pairwise sum.

  The output block is written back only after the last step along the key axis (points with `t % 8 = 7`), when
  the partial sum runs over all 2048 key rows.  The eight blocks written back are the eight row blocks of the
  array, so every entry `(r, h)` of the array ends at `∑ j, max (A r h + B j h) 0`.
-/
import proofs.«122080_j29652454212127_1_alg».proof.Proof.KSum

noncomputable section

open Idealize.ShloMosaic Idealize.ShloMosaic.TcCoe Idealize.SL.Sem
open Idealize.ShloMosaic.Pipeline (Dat)

namespace Cert.KernelIdeal.Arr

open Cert.KernelIdeal Cert.KernelIdeal.Gen Cert.KernelIdeal.Sum Idealize.ShloMosaic.ValueIdx

variable (m : (ℓ : Loc nD τ sig) → Buf (Elt Idealize.ShloMosaic.Ideal) ℓ)

/-- What a point with `t % 8 = 7` writes back is its block of the pairwise sum of the two arrays. -/
theorem flushed_eq (c : Dev nD) (t : Fin cfg0.N) (hf : (cfg0.win 2).flush t = true) :
    (dats m 0 c).flushed 2 t = ((cfg0.win 2).blk t).view.read (Elt Idealize.ShloMosaic.Ideal) (PairSpec.pairSum (qarr m c) (karr m c)) := by
  have h7 : t.val % 8 = 7 := (flush0_2 t).mp hf
  have hN : t.val < 64 := lt_of_lt_of_eq t.isLt (show cfg0.N = 64 from N_0)
  obtain ⟨-, -, -, -, e0, e1⟩ := idx_facts t
  show (cfg0.win 2).cut (grid0.coords t) ((dats m 0 c).after 2 t) = _
  rw [after0_2]
  funext y
  obtain ⟨b, h, rfl⟩ : ∃ (b : Fin 256) (h : Fin 64), y = ix2 b h := ⟨y 0, y 1, eq_ix2 y⟩
  rw [View.read_apply]
  show outsAt0 m c t.val t.isLt (ix2 b h) = PairSpec.pairSum (qarr m c) (karr m c) (((cfg0.win 2).blk t).view.emb (ix2 b h))
  have hemb : ((cfg0.win 2).blk t).view.emb (ix2 b h) = ix2 (⟨256 * (t.val / 8) + b.val, by omega⟩ : Fin 2048) h := by
    funext a; apply Fin.ext
    match a with
    | ⟨0, _⟩ => show win0_2.index t (0 : Fin 2) * 256 + 1 * b.val = 256 * (t.val / 8) + b.val; rw [e0]; omega
    | ⟨1, _⟩ => show win0_2.index t (1 : Fin 2) * 64 + 1 * h.val = h.val; rw [e1]; omega
  rw [hemb, outsAt_apply m c t.val t.isLt b h ⟨256 * (t.val / 8) + b.val, by omega⟩ rfl,
    show 256 * (t.val % 8) + 256 = 2048 from by omega, PairSpec.partSum_full]
  rfl

/-- An index of the array is in point `t`'s block iff each coordinate is in the block's range on its axis. -/
theorem mem_blk (t : Fin cfg0.N) (i : S2048x64.Idx) :
    i ∈ ((cfg0.win 2).blk t).view.set ↔ ∀ a : Fin 2, win0_2.index t a * S256x64.size a ≤ (i a).val ∧ (i a).val < win0_2.index t a * S256x64.size a + S256x64.size a := by
  show i ∈ ((View.whole main_v7).slice (win0_2.rect t)).set ↔ _
  rw [View.set_slice_whole, Rect.mem_set_unit]
  exact Iff.rfl

/-- Every entry of the array is in the block some point writes back: row `r` in that of point `8 * (r / 256) + 7`. -/
theorem cover (i : S2048x64.Idx) : ∃ t : Fin cfg0.N, (cfg0.win 2).flush t = true ∧ i ∈ ((cfg0.win 2).blk t).view.set := by
  have hi0 : (i 0).val < 2048 := (i 0).isLt
  have hi1 : (i 1).val < 64 := (i 1).isLt
  have hlt : 8 * ((i 0).val / 256) + 7 < cfg0.N := by rw [show cfg0.N = 64 from N_0]; omega
  obtain ⟨-, -, -, -, e0, e1⟩ := idx_facts ⟨8 * ((i 0).val / 256) + 7, hlt⟩
  refine ⟨⟨8 * ((i 0).val / 256) + 7, hlt⟩, (flush0_2 _).mpr (by show (8 * ((i 0).val / 256) + 7) % 8 = 7; omega), ?_⟩
  rw [mem_blk]
  intro a
  match a with
  | ⟨0, _⟩ =>
    show win0_2.index ⟨8 * ((i 0).val / 256) + 7, hlt⟩ (0 : Fin 2) * 256 ≤ (i 0).val ∧ (i 0).val < win0_2.index ⟨8 * ((i 0).val / 256) + 7, hlt⟩ (0 : Fin 2) * 256 + 256
    rw [e0]
    show (8 * ((i 0).val / 256) + 7) / 8 * 256 ≤ (i 0).val ∧ (i 0).val < (8 * ((i 0).val / 256) + 7) / 8 * 256 + 256
    omega
  | ⟨1, _⟩ =>
    show win0_2.index ⟨8 * ((i 0).val / 256) + 7, hlt⟩ (1 : Fin 2) * 64 ≤ (i 1).val ∧ (i 1).val < win0_2.index ⟨8 * ((i 0).val / 256) + 7, hlt⟩ (1 : Fin 2) * 64 + 64
    rw [e1]
    omega

/-- THE ARRAY after the run is the pairwise sum of the two arrays the kernel read. -/
theorem final (c : Dev nD) : (dats m 0 c).arrAt 2 cfg0.N = PairSpec.pairSum (qarr m c) (karr m c) :=
  (dats m 0 c).arrAt_eq_of_cover 2 (PairSpec.pairSum (qarr m c) (karr m c)) (flushed_eq m c) cover

end Cert.KernelIdeal.Arr

end
-- ==== Proof.KTail.lean ====
/-
  The kernel program's result as one function of its five argument arrays.

  Before the region the host computes the two products `X1 = messages · W1[:, :8]ᵀ` and `X2 = messages · W1[:, 8:]ᵀ`
  and adds the bias to the first; the region leaves the pairwise sum of the two; after the region the host
  subtracts the diagonal term `max ((X1 + b1) + X2) 0`, multiplies by `W2ᵀ`, adds `2047 · b2` and divides by 2047.
-/
import proofs.«122080_j29652454212127_1_alg».proof.Proof.KArray
import Idealize.ShloMosaic.Lib.StableHlo.Run

noncomputable section

open Idealize.ShloMosaic Idealize.ShloMosaic.TcCoe Idealize.SL.Sem
open Idealize.ShloMosaic.Pipeline (Dat)

namespace Cert.KernelIdeal.Tail

open Cert.KernelIdeal Cert.KernelIdeal.Gen Cert.KernelIdeal.Sum Cert.KernelIdeal.Arr Idealize.ShloMosaic.ValueIdx Idealize.ShloMosaic.StableHlo

/-- The biased first product. -/
def qOf (a0 : FVec Idealize.ShloMosaic.Ideal S2048x8 .f32) (a1 : FVec Idealize.ShloMosaic.Ideal S64x16 .f32) (a2 : FVec Idealize.ShloMosaic.Ideal S64 .f32) :
    FVec Idealize.ShloMosaic.Ideal S2048x64 .f32 :=
  addf (Host.dotGeneral dot_S2048x8_S64x8_S2048x64_1_1_0_0_n_n none a0 (extractStridedSlice S64x8 ![0, 0] a1 slices_S64x16_S64x8_0_0))
    (broadcastInDim S2048x64 ![0, 1] bcast_S1x64_S2048x64_0_1 (broadcastInDim S1x64 ![1] bcast_S64_S1x64_1 a2))

/-- The second product. -/
def kOf (a0 : FVec Idealize.ShloMosaic.Ideal S2048x8 .f32) (a1 : FVec Idealize.ShloMosaic.Ideal S64x16 .f32) : FVec Idealize.ShloMosaic.Ideal S2048x64 .f32 :=
  Host.dotGeneral dot_S2048x8_S64x8_S2048x64_1_1_0_0_n_n none a0 (extractStridedSlice S64x8 ![0, 8] a1 slices_S64x16_S64x8_0_8)

/-- The end of the computation, from the sum without its diagonal term: the product with `W2ᵀ`, plus `2047 · b2`,
    over 2047. -/
def tailOf (z : FVec Idealize.ShloMosaic.Ideal S2048x64 .f32) (a3 : FVec Idealize.ShloMosaic.Ideal S8x64 .f32) (a4 : FVec Idealize.ShloMosaic.Ideal S8 .f32) :
    FVec Idealize.ShloMosaic.Ideal S2048x8 .f32 :=
  Host.divf
    (addf (Host.dotGeneral dot_S2048x64_S8x64_S2048x8_1_1_0_0_n_n none z a3)
      (broadcastInDim S2048x8 ![0, 1] bcast_S1x8_S2048x8_0_1 (broadcastInDim S1x8 ![1] bcast_S8_S1x8_1
        (mulf (broadcastInDim S8 ![] bcast_S_S8 (constant (F := Idealize.ShloMosaic.Ideal) S_ .f32 0x44FFE000#32)) a4))))
    (broadcastInDim S2048x8 ![] bcast_S_S2048x8 (constant (F := Idealize.ShloMosaic.Ideal) S_ .f32 0x44FFE000#32))

/-- The pairwise sum of two arrays without its diagonal term. -/
def offDiag (q k : FVec Idealize.ShloMosaic.Ideal S2048x64 .f32) : FVec Idealize.ShloMosaic.Ideal S2048x64 .f32 :=
  subf (PairSpec.pairSum q k)
    (maximumf (addf q k) (broadcastInDim S2048x64 ![] bcast_S_S2048x64 (constant (F := Idealize.ShloMosaic.Ideal) S_ .f32 0x00000000#32)))

/-- The whole program's value. -/
def value (a0 : FVec Idealize.ShloMosaic.Ideal S2048x8 .f32) (a1 : FVec Idealize.ShloMosaic.Ideal S64x16 .f32) (a2 : FVec Idealize.ShloMosaic.Ideal S64 .f32)
    (a3 : FVec Idealize.ShloMosaic.Ideal S8x64 .f32) (a4 : FVec Idealize.ShloMosaic.Ideal S8 .f32) : FVec Idealize.ShloMosaic.Ideal S2048x8 .f32 :=
  tailOf (offDiag (qOf a0 a1 a2) (kOf a0 a1)) a3 a4

variable (m : (ℓ : Loc nD τ sig) → Buf (Elt Idealize.ShloMosaic.Ideal) ℓ)

/-- The first array the kernel reads is the biased first product of the arguments. -/
theorem qarr_eq (c : Dev nD) : qarr m c
    = qOf (m ((c.tc : Thread nD τ).loc main_arg0)) (m ((c.tc : Thread nD τ).loc main_arg1)) (m ((c.tc : Thread nD τ).loc main_arg2)) := by
  show StableHlo.after hostOps0 (fun b => m (c, b)) (Proc.devRef .tc main_v6) = _
  after_results
  rfl

/-- The second array the kernel reads is the second product of the arguments. -/
theorem karr_eq (c : Dev nD) : karr m c = kOf (m ((c.tc : Thread nD τ).loc main_arg0)) (m ((c.tc : Thread nD τ).loc main_arg1)) := by
  show StableHlo.after hostOps0 (fun b => m (c, b)) (Proc.devRef .tc main_v3) = _
  after_results
  rfl

/-- What the host operations after the region find in the buffers they read: the region's result array at the
    pairwise sum, its two inputs and the arguments as they were. -/
theorem found_v7 (c : Dev nD) :
    Pipeline.withArrays (cfgs 0).spec c (V0 m c) (fun w => (dats m 0 c).arrAt w (cfgs 0).N) (Proc.devRef .tc main_v7)
      = PairSpec.pairSum (qarr m c) (karr m c) :=
  (Pipeline.withArrays_arr spec0 launch0.win.arr_inj c _ _ 2).trans (final m c)
theorem found_v6 (c : Dev nD) :
    Pipeline.withArrays (cfgs 0).spec c (V0 m c) (fun w => (dats m 0 c).arrAt w (cfgs 0).N) (Proc.devRef .tc main_v6) = qarr m c :=
  (Pipeline.withArrays_arr spec0 launch0.win.arr_inj c _ _ 0).trans (((dats m 0 c).arrAt_in 0 rfl _).trans (A_eq m c 0))
theorem found_v3 (c : Dev nD) :
    Pipeline.withArrays (cfgs 0).spec c (V0 m c) (fun w => (dats m 0 c).arrAt w (cfgs 0).N) (Proc.devRef .tc main_v3) = karr m c :=
  (Pipeline.withArrays_arr spec0 launch0.win.arr_inj c _ _ 1).trans (((dats m 0 c).arrAt_in 1 rfl _).trans (A_eq m c 1))
theorem found_arg3 (c : Dev nD) :
    Pipeline.withArrays (cfgs 0).spec c (V0 m c) (fun w => (dats m 0 c).arrAt w (cfgs 0).N) (Proc.devRef .tc main_arg3)
      = m ((c.tc : Thread nD τ).loc main_arg3) :=
  (Pipeline.withArrays_of_ne _ c (V0 m c) _ main_arg3 (by exact (by decide : ∀ w, Pipeline.arrRef spec0 w ≠ main_arg3))).trans (V_main_arg3 m c)
theorem found_arg4 (c : Dev nD) :
    Pipeline.withArrays (cfgs 0).spec c (V0 m c) (fun w => (dats m 0 c).arrAt w (cfgs 0).N) (Proc.devRef .tc main_arg4)
      = m ((c.tc : Thread nD τ).loc main_arg4) :=
  (Pipeline.withArrays_of_ne _ c (V0 m c) _ main_arg4 (by exact (by decide : ∀ w, Pipeline.arrRef spec0 w ≠ main_arg4))).trans (V_main_arg4 m c)

/-- The result buffer after the host operations that follow the region. -/
theorem result_eq (c : Dev nD) :
    Pipeline.afterTail₀ cfgs (dats m) 0 (V0 m) [hostOps1, hostOps1_1, hostOps1_2] c main_v18
      = value (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  unfold Pipeline.afterTail₀
  simp only [hostOps1, hostOps1_1, hostOps1_2, List.flatten_cons, List.flatten_nil, List.append_nil, List.cons_append, List.nil_append]
  after_results
  rw [found_v7, found_v6, found_v3, found_arg3, found_arg4, qarr_eq, karr_eq]
  rfl

/-- The run, read: the result at the program's value of the arguments, the arguments unchanged. -/
theorem run (ρ : Dev nD → PrngReg) :
    θ_run defs (onTc (τ := τ) (main (F := Idealize.ShloMosaic.Ideal))) ⟨m, fun _ => 0, ρ⟩ fun r => ∀ c : Dev nD,
      r.2.mem ((c.tc : Thread nD τ).loc main_v18)
        = value (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v18 (Pipeline.mem_restRefs_of main_v18 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Tail

end
-- ==== Proof.RefVal.lean ====
/-
  The reference's sum without its diagonal term, as the pairwise sum of the same two arrays.

  The reference forms `max ((X1 r h + X2 j h) + b1 h) 0` for every pair of rows and sums over `j` from zero; the
  diagonal term is `max ((X1 + X2) + b1) 0`.  With the bias moved next to `X1` both are the pairwise sum and the
  diagonal of the arrays `X1 + b1` and `X2`: addition on the extended reals is commutative and associative, and the
  leading zero of the sum is neutral.
-/
import proofs.«122080_j29652454212127_1_alg».proof.Proof.Gen.ReferenceIdeal.Read
import proofs.«122080_j29652454212127_1_alg».proof.Proof.PairSpec

noncomputable section

open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.ValueIdx

variable (x0 : (⟨S2048x8, .f32⟩ : BufTy).Contents (Elt Idealize.ShloMosaic.Ideal)) (x1 : (⟨S64x16, .f32⟩ : BufTy).Contents (Elt Idealize.ShloMosaic.Ideal))
  (x2 : (⟨S64, .f32⟩ : BufTy).Contents (Elt Idealize.ShloMosaic.Ideal))

/-- The bias broadcast over the rows, read at `(r, h)`. -/
theorem bias_apply (r : Fin 2048) (h : Fin 64) : val_main_v16 (F := Idealize.ShloMosaic.Ideal) x2 (ix2 r h) = x2 (ix1 h) := by
  rw [val_main_v16_apply, val_main_v15_apply]
  exact congrArg x2 (funext fun a => match a with | ⟨0, _⟩ => rfl)

/-- The hidden state of the pair of rows `(r, k)` at column `h`. -/
theorem hidden_apply (r k : Fin 2048) (h : Fin 64) :
    val_main_v12 (F := Idealize.ShloMosaic.Ideal) x0 x1 x2 (idx_main_v13 (ix2 r h) k)
      = max ((val_main_v1 (F := Idealize.ShloMosaic.Ideal) x0 x1 (ix2 r h) + val_main_v3 (F := Idealize.ShloMosaic.Ideal) x0 x1 (ix2 k h)) + x2 (ix1 h)) 0 := by
  have e1 : idx_main_v4 (idx_main_v6 (idx_main_v13 (ix2 r h) k)) = ix2 r h :=
    funext fun a => Fin.ext (by match a with | ⟨0, _⟩ => rfl | ⟨1, _⟩ => rfl)
  have e2 : idx_main_v5 (idx_main_v7 (idx_main_v13 (ix2 r h) k)) = ix2 k h :=
    funext fun a => Fin.ext (by match a with | ⟨0, _⟩ => rfl | ⟨1, _⟩ => rfl)
  have e3 : idx_main_v9 (idx_main_v10 (idx_main_v13 (ix2 r h) k)) = ix1 h :=
    funext fun a => Fin.ext (by match a with | ⟨0, _⟩ => rfl)
  rw [val_main_v12_apply, val_main_v11_apply, val_main_v8_apply, val_main_v6_apply, val_main_v4_apply, val_main_v7_apply,
    val_main_v5_apply, val_main_v10_apply, val_main_v9_apply, val_main_call0_v0_apply, val_main_call0_cst_apply, e1, e2, e3]
  simp only [Ideal.addf_def, Ideal.maximumf_def, Ideal.ofBits_def, Ideal.ofBits_zero_f32]

/-- The reference's sum without its diagonal term is that of the biased first product and the second product. -/
theorem v19_eq : val_main_v19 (F := Idealize.ShloMosaic.Ideal) x0 x1 x2
    = (subf (PairSpec.pairSum (addf (val_main_v1 (F := Idealize.ShloMosaic.Ideal) x0 x1) (val_main_v16 (F := Idealize.ShloMosaic.Ideal) x2) : FVec Idealize.ShloMosaic.Ideal S2048x64 .f32) (val_main_v3 (F := Idealize.ShloMosaic.Ideal) x0 x1))
        (maximumf (addf (addf (val_main_v1 (F := Idealize.ShloMosaic.Ideal) x0 x1) (val_main_v16 (F := Idealize.ShloMosaic.Ideal) x2)) (val_main_v3 (F := Idealize.ShloMosaic.Ideal) x0 x1))
          (val_main_call1_v0 (F := Idealize.ShloMosaic.Ideal))) : FVec Idealize.ShloMosaic.Ideal S2048x64 .f32) := by
  funext i
  obtain ⟨r, h, rfl⟩ : ∃ (r : Fin 2048) (h : Fin 64), i = ix2 r h := ⟨i 0, i 1, eq_ix2 i⟩
  rw [val_main_v19_apply, val_main_v13_apply, val_main_v18_apply, val_main_v17_apply, val_main_v14_apply, val_main_cst_apply]
  refine congrArg₂ (fun u v : EReal => u - v) ?_ ?_
  · -- the sum over the key rows
    show Ideal.ofBits .f32 0x00000000#32 + _ = ∑ j : Fin 2048, _
    rw [Ideal.ofBits_zero_f32, zero_add]
    refine Finset.sum_congr rfl fun k _ => ?_
    rw [hidden_apply]
    show _ = max ((val_main_v1 (F := Idealize.ShloMosaic.Ideal) x0 x1 (ix2 r h) + val_main_v16 (F := Idealize.ShloMosaic.Ideal) x2 (ix2 r h)) + val_main_v3 (F := Idealize.ShloMosaic.Ideal) x0 x1 (ix2 k h)) 0
    rw [bias_apply, add_right_comm]
  · -- the diagonal term
    show max ((val_main_v1 (F := Idealize.ShloMosaic.Ideal) x0 x1 (ix2 r h) + val_main_v3 (F := Idealize.ShloMosaic.Ideal) x0 x1 (ix2 r h)) + val_main_v16 (F := Idealize.ShloMosaic.Ideal) x2 (ix2 r h)) _
      = max ((val_main_v1 (F := Idealize.ShloMosaic.Ideal) x0 x1 (ix2 r h) + val_main_v16 (F := Idealize.ShloMosaic.Ideal) x2 (ix2 r h)) + val_main_v3 (F := Idealize.ShloMosaic.Ideal) x0 x1 (ix2 r h)) _
    rw [add_right_comm]

end Cert.ReferenceIdeal.RefValue

end
-- ==== Proof.Bridge.lean ====
/-
  The two programs compute one function of the five argument arrays.

  The reference ends with the same operations as the kernel program (the product with `W2ᵀ`, plus `2047 · b2`,
  over 2047, with the same constant words), applied to its sum without the diagonal term; and that sum is the
  pairwise sum, without its diagonal, of the biased first product and the second product — the arrays the kernel
  region reads.  So the reference's last stage is the kernel program's value function.
-/
import proofs.«122080_j29652454212127_1_alg».proof.Proof.KTail
import proofs.«122080_j29652454212127_1_alg».proof.Proof.RefVal

noncomputable section

open Idealize.ShloMosaic Idealize.ShloMosaic.TcCoe Idealize.SL.Sem

namespace Cert.Bridge

open Cert.ReferenceIdeal.Read

/-- The reference's result stage is the kernel program's value of the same arguments. -/
theorem ref_eq (x0 : (⟨Cert.ReferenceIdeal.S2048x8, .f32⟩ : BufTy).Contents (Elt Idealize.ShloMosaic.Ideal))
    (x1 : (⟨Cert.ReferenceIdeal.S64x16, .f32⟩ : BufTy).Contents (Elt Idealize.ShloMosaic.Ideal))
    (x2 : (⟨Cert.ReferenceIdeal.S64, .f32⟩ : BufTy).Contents (Elt Idealize.ShloMosaic.Ideal))
    (x3 : (⟨Cert.ReferenceIdeal.S8x64, .f32⟩ : BufTy).Contents (Elt Idealize.ShloMosaic.Ideal))
    (x4 : (⟨Cert.ReferenceIdeal.S8, .f32⟩ : BufTy).Contents (Elt Idealize.ShloMosaic.Ideal)) :
    val_main_v27 (F := Idealize.ShloMosaic.Ideal) x0 x1 x2 x3 x4 = Cert.KernelIdeal.Tail.value x0 x1 x2 x3 x4 := by
  unfold val_main_v27 val_main_v25 val_main_v20
  rw [Cert.ReferenceIdeal.RefValue.v19_eq]
  rfl

end Cert.Bridge

end
-- ==== Proof.lean ====
/-
  The certificate of the pairwise edge-MLP mean: a Pallas kernel that tiles the O(N²) hidden state against the
  plain jnp reference, N = 2048 messages of dimension 8, hidden width 64.

  Both programs compute, for message `i` and output coordinate `d`,
      ( ∑ h, (S i h − D i h) · W2 d h  +  2047 · b2 d ) / 2047,
  where `S i h = ∑ j, max (X1 i h + X2 j h + b1 h) 0` runs over ALL messages `j` and `D i h` is its `j = i` term,
  `X1 = messages · W1[:, :8]ᵀ` and `X2 = messages · W1[:, 8:]ᵀ`.  The kernel folds the bias into `X1` once and
  accumulates `S` over an 8 × 8 grid of 256-row blocks, resetting the output block at the start of each pass over
  the key rows; the reference adds the bias last and sums in one piece.  Over the extended reals the two
  arrangements agree by the commutativity and associativity of addition alone, so the precondition (finite
  inputs) is never opened.

    Proof/PairSpec.lean   the partial sums over key rows and their step law
    Proof/KBody.lean      what one run of the kernel body leaves in the output block
    Proof/KSum.lean       the output block after each grid point, by induction on the point
    Proof/KArray.lean     the region's result array after the run
    Proof/KTail.lean      the kernel program's result as a function of its arguments
    Proof/RefVal.lean     the reference's sum, read index by index
    Proof/Bridge.lean     the two functions are one

  The frames of the kernel and of its idealization are the generated ones; the reference's frame is its generated
  run with the result dropped; the ideal pass rewrote nothing, so `preserves` is trivial.
-/
import proofs.«122080_j29652454212127_1_alg».proof.Defs
import proofs.«122080_j29652454212127_1_alg».proof.Proof.Gen.Kernel
import proofs.«122080_j29652454212127_1_alg».proof.Proof.Gen.Kernel.Skeleton
import proofs.«122080_j29652454212127_1_alg».proof.Proof.Gen.Kernel.Launch
import proofs.«122080_j29652454212127_1_alg».proof.Proof.Gen.Kernel.Points
import proofs.«122080_j29652454212127_1_alg».proof.Proof.Gen.Kernel.Frame
import proofs.«122080_j29652454212127_1_alg».proof.Proof.Gen.KernelIdeal
import proofs.«122080_j29652454212127_1_alg».proof.Proof.Gen.KernelIdeal.Skeleton
import proofs.«122080_j29652454212127_1_alg».proof.Proof.Gen.KernelIdeal.Launch
import proofs.«122080_j29652454212127_1_alg».proof.Proof.Gen.KernelIdeal.Points
import proofs.«122080_j29652454212127_1_alg».proof.Proof.Gen.KernelIdeal.Frame
import proofs.«122080_j29652454212127_1_alg».proof.Proof.Gen.ReferenceIdeal
import proofs.«122080_j29652454212127_1_alg».proof.Proof.Gen.Pre_finite_inputs
import proofs.«122080_j29652454212127_1_alg».proof.Proof.Gen.ReferenceIdeal.Run
import proofs.«122080_j29652454212127_1_alg».proof.Proof.Gen.ReferenceIdeal.Read
import proofs.«122080_j29652454212127_1_alg».proof.Proof.Bridge
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Idealize.ShloMosaic.Ideal) m ρ)

/-- The ideal pass rewrote no operation of the kernel. -/
theorem preserves : Cert.preserves_Kernel_KernelIdeal := trivial

/-- At the ideal values the kernel program's result is its value function of the arguments (the region's array read
    back as the pairwise sum, the host operations around it), and the reference's result is the same function of
    arguments that agree. -/
theorem algebraic : Cert.algebraic_KernelIdeal_ReferenceIdeal := by
  intro m ρ m' ρ' _ hagree
  refine ⟨_, Cert.KernelIdeal.Tail.run m ρ, ?_⟩
  refine (θ_run Cert.ReferenceIdeal.defs _ _).mono (fun _ h c => ⟨(h c).1.trans ?_, (h c).2⟩)
    (Cert.ReferenceIdeal.Value.run (F := Idealize.ShloMosaic.Ideal) m' ρ')
  rw [Cert.ReferenceIdeal.Read.val_main_v27_eq, Cert.Bridge.ref_eq, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
